-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S5x64 : Shape := ⟨2, ![5, 64]⟩
abbrev S5 : Shape := ⟨1, ![5]⟩
abbrev S5x5 : Shape := ⟨2, ![5, 5]⟩
abbrev S64x5 : Shape := ⟨2, ![64, 5]⟩
abbrev S64 : Shape := ⟨1, ![64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S5 : S_.BroadcastsInDim S5 (![] : Fin 0 → Fin S5.rank)
  reducesTo_S5_S_d0 : S5.ReducesTo [0] S_
  bcast_S_S5x5 : S_.BroadcastsInDim S5x5 (![] : Fin 0 → Fin S5x5.rank)
  reducesTo_S5x5_S_d0_1 : S5x5.ReducesTo [0, 1] S_
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S5x5 .f32) (main_arg5 : FVec F S5 .f32) (main_arg6 : FVec F S64x5 .f32) (main_arg7 : FVec F S64 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x5 .f32 := Host.absf main_arg4
  let main_cst_6 : FVec F S_ .f32 := constant S_ .f32 0x7F800000#32
  let main_v20 : FVec F S5x5 .f32 := broadcastInDim S5x5 ![] bcast_S_S5x5 main_cst_6
  let main_v21 : IVec S5x5 1 := cmpf .olt main_v19 main_v20
  let main_c_7 : IVec S_ 1 := constantI S_ 1 1#1
  let main_v22 : IVec S_ 1 := (fun x v => Host.reduce IntOp.andi x v reducesTo_S5x5_S_d0_1 h_S_) main_v21 main_c_7
  let main_v23 : IVec S_ 1 := andi main_v18 main_v22
  let main_v24 : FVec F S5 .f32 := Host.absf main_arg5
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S64x5 .f32 := Host.absf main_arg6
  let main_cst_10 : FVec F S_ .f32 := constant S_ .f32 0x7F800000#32
  let main_v30 : FVec F S64x5 .f32 := broadcastInDim S64x5 ![] bcast_S_S64x5 main_cst_10
  let main_v31 : IVec S64x5 1 := cmpf .olt main_v29 main_v30
  let main_c_11 : IVec S_ 1 := constantI S_ 1 1#1
  let main_v32 : IVec S_ 1 := (fun x v => Host.reduce IntOp.andi x v reducesTo_S64x5_S_d0_1 h_S_) main_v31 main_c_11
  let main_v33 : IVec S_ 1 := andi main_v28 main_v32
  fn_part2 (F := F) main_arg7 main_v33

def fn {F : FTy → Type} [FloatOps F] (main_arg0 : FVec F S2048x64 .f32) (main_arg1 : FVec F S2048x64 .f32) (main_arg2 : FVec F S5x64 .f32) (main_arg3 : FVec F S5 .f32) (main_arg4 : FVec F S5x5 .f32) (main_arg5 : FVec F S5 .f32) (main_arg6 : FVec F S64x5 .f32) (main_arg7 : FVec F S64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S5x64 .f32 := Host.absf main_arg2
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_arg5 main_arg6 main_arg7 main_v13 main_v16
-- ==== Kernel.lean ====
abbrev S2048x64 : Shape := ⟨2, ![2048, 64]⟩
abbrev S5x64 : Shape := ⟨2, ![5, 64]⟩
abbrev S5 : Shape := ⟨1, ![5]⟩
abbrev S5x5 : Shape := ⟨2, ![5, 5]⟩
abbrev S64x5 : Shape := ⟨2, ![64, 5]⟩
abbrev S64 : Shape := ⟨1, ![64]⟩
abbrev S2048x5 : Shape := ⟨2, ![2048, 5]⟩
abbrev S1x5 : Shape := ⟨2, ![1, 5]⟩
abbrev S_ : Shape := ⟨0, ![]⟩
abbrev S1x64 : Shape := ⟨2, ![1, 64]⟩
abbrev S2048x2048 : Shape := ⟨2, ![2048, 2048]⟩
abbrev S128x64 : Shape := ⟨2, ![128, 64]⟩
abbrev S256x64 : Shape := ⟨2, ![256, 64]⟩
abbrev S128x256 : Shape := ⟨2, ![128, 256]⟩
abbrev S1x256x64 : Shape := ⟨3, ![1, 256, 64]⟩
abbrev S128x1x64 : Shape := ⟨3, ![128, 1, 64]⟩
abbrev S128x256x64 : Shape := ⟨3, ![128, 256, 64]⟩

abbrev nBuf : Space → Nat
  | .hbm => 89
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S5x64, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S64x5, .f32⟩
  | .hbm, ⟨7, _⟩ => ⟨S64, .f32⟩
  | .hbm, ⟨8, _⟩ => ⟨S64x5, .f32⟩
  | .hbm, ⟨9, _⟩ => ⟨S2048x5, .f32⟩
  | .hbm, ⟨10, _⟩ => ⟨S1x5, .f32⟩
  | .hbm, ⟨11, _⟩ => ⟨S2048x5, .f32⟩
  | .hbm, ⟨12, _⟩ => ⟨S2048x5, .f32⟩
  | .hbm, ⟨13, _⟩ => ⟨S_, .f32⟩
  | .hbm, ⟨14, _⟩ => ⟨S2048x5, .f32⟩
  | .hbm, ⟨15, _⟩ => ⟨S2048x5, .f32⟩
  | .hbm, ⟨16, _⟩ => ⟨S5x5, .f32⟩
  | .hbm, ⟨17, _⟩ => ⟨S2048x5, .f32⟩
  | .hbm, ⟨18, _⟩ => ⟨S1x5, .f32⟩
  | .hbm, ⟨19, _⟩ => ⟨S2048x5, .f32⟩
  | .hbm, ⟨20, _⟩ => ⟨S2048x5, .f32⟩
  | .hbm, ⟨21, _⟩ => ⟨S_, .f32⟩
  | .hbm, ⟨22, _⟩ => ⟨S2048x5, .f32⟩
  | .hbm, ⟨23, _⟩ => ⟨S2048x5, .f32⟩
  | .hbm, ⟨24, _⟩ => ⟨S5x5, .f32⟩
  | .hbm, ⟨25, _⟩ => ⟨S2048x5, .f32⟩
  | .hbm, ⟨26, _⟩ => ⟨S1x5, .f32⟩
  | .hbm, ⟨27, _⟩ => ⟨S2048x5, .f32⟩
  | .hbm, ⟨28, _⟩ => ⟨S2048x5, .f32⟩
  | .hbm, ⟨29, _⟩ => ⟨S_, .f32⟩
  | .hbm, ⟨30, _⟩ => ⟨S2048x5, .f32⟩
  | .hbm, ⟨31, _⟩ => ⟨S2048x5, .f32⟩
  | .hbm, ⟨32, _⟩ => ⟨S5x5, .f32⟩
  | .hbm, ⟨33, _⟩ => ⟨S2048x5, .f32⟩
  | .hbm, ⟨34, _⟩ => ⟨S1x5, .f32⟩
  | .hbm, ⟨35, _⟩ => ⟨S2048x5, .f32⟩
  | .hbm, ⟨36, _⟩ => ⟨S2048x5, .f32⟩
  | .hbm, ⟨37, _⟩ => ⟨S_, .f32⟩
  | .hbm, ⟨38, _⟩ => ⟨S2048x5, .f32⟩
  | .hbm, ⟨39, _⟩ => ⟨S2048x5, .f32⟩
  | .hbm, ⟨40, _⟩ => ⟨S5x64, .f32⟩
  | .hbm, ⟨41, _⟩ => ⟨S2048x64, .f32⟩
  | .hbm, ⟨42, _⟩ => ⟨S1x64, .f32⟩
  | .hbm, ⟨43, _⟩ => ⟨S2048x64, .f32⟩
  | .hbm, ⟨44, _⟩ => ⟨S2048x64, .f32⟩
  | .hbm, ⟨45, _⟩ => ⟨S_, .f32⟩
  | .hbm, ⟨46, _⟩ => ⟨S2048x64, .f32⟩
  | .hbm, ⟨47, _⟩ => ⟨S2048x64, .f32⟩
  | .hbm, ⟨48, _⟩ => ⟨S64x5, .f32⟩
  | .hbm, ⟨49, _⟩ => ⟨S2048x5, .f32⟩
  | .hbm, ⟨50, _⟩ => ⟨S1x5, .f32⟩
  | .hbm, ⟨51, _⟩ => ⟨S2048x5, .f32⟩
  | .hbm, ⟨52, _⟩ => ⟨S2048x5, .f32⟩
  | .hbm, ⟨53, _⟩ => ⟨S_, .f32⟩
  | .hbm, ⟨54, _⟩ => ⟨S2048x5, .f32⟩
  | .hbm, ⟨55, _⟩ => ⟨S2048x5, .f32⟩
  | .hbm, ⟨56, _⟩ => ⟨S5x5, .f32⟩
  | .hbm, ⟨57, _⟩ => ⟨S2048x5, .f32⟩
  | .hbm, ⟨58, _⟩ => ⟨S1x5, .f32⟩
  | .hbm, ⟨59, _⟩ => ⟨S2048x5, .f32⟩
  | .hbm, ⟨60, _⟩ => ⟨S2048x5, .f32⟩
  | .hbm, ⟨61, _⟩ => ⟨S_, .f32⟩
  | .hbm, ⟨62, _⟩ => ⟨S2048x5, .f32⟩
  | .hbm, ⟨63, _⟩ => ⟨S2048x5, .f32⟩
  | .hbm, ⟨64, _⟩ => ⟨S5x5, .f32⟩
  | .hbm, ⟨65, _⟩ => ⟨S2048x5, .f32⟩
  | .hbm, ⟨66, _⟩ => ⟨S1x5, .f32⟩
  | .hbm, ⟨67, _⟩ => ⟨S2048x5, .f32⟩
  | .hbm, ⟨68, _⟩ => ⟨S2048x5, .f32⟩
  | .hbm, ⟨69, _⟩ => ⟨S_, .f32⟩
  | .hbm, ⟨70, _⟩ => ⟨S2048x5, .f32⟩
  | .hbm, ⟨71, _⟩ => ⟨S2048x5, .f32⟩
  | .hbm, ⟨72, _⟩ => ⟨S5x5, .f32⟩
  | .hbm, ⟨73, _⟩ => ⟨S2048x5, .f32⟩
  | .hbm, ⟨74, _⟩ => ⟨S1x5, .f32⟩
  | .hbm, ⟨75, _⟩ => ⟨S2048x5, .f32⟩
  | .hbm, ⟨76, _⟩ => ⟨S2048x5, .f32⟩
  | .hbm, ⟨77, _⟩ => ⟨S_, .f32⟩
  | .hbm, ⟨78, _⟩ => ⟨S2048x5, .f32⟩
  | .hbm, ⟨79, _⟩ => ⟨S2048x5, .f32⟩
  | .hbm, ⟨80, _⟩ => ⟨S5x64, .f32⟩
  | .hbm, ⟨81, _⟩ => ⟨S2048x64, .f32⟩
  | .hbm, ⟨82, _⟩ => ⟨S1x64, .f32⟩
  | .hbm, ⟨83, _⟩ => ⟨S2048x64, .f32⟩
  | .hbm, ⟨84, _⟩ => ⟨S2048x64, .f32⟩
  | .hbm, ⟨85, _⟩ => ⟨S_, .f32⟩
  | .hbm, ⟨86, _⟩ => ⟨S2048x64, .f32⟩
  | .hbm, ⟨87, _⟩ => ⟨S2048x64, .f32⟩
  | .hbm, ⟨88, _⟩ => ⟨S2048x2048, .f32⟩
  | .local _ .vmem, ⟨0, _⟩ => ⟨S128x64, .f32⟩
  | .local _ .vmem, ⟨1, _⟩ => ⟨S128x64, .f32⟩
  | .local _ .vmem, ⟨2, _⟩ => ⟨S256x64, .f32⟩
  | .local _ .vmem, ⟨3, _⟩ => ⟨S256x64, .f32⟩
  | .local _ .vmem, ⟨4, _⟩ => ⟨S128x256, .f32⟩
  | .local _ .vmem, ⟨5, _⟩ => ⟨S128x256, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call3_cst : Ref sig .tc := ⟨.hbm, 37, rfl⟩
abbrev main_call3_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call4_cst : Ref sig .tc := ⟨.hbm, 45, rfl⟩
abbrev main_call4_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call5_cst : Ref sig .tc := ⟨.hbm, 53, rfl⟩
abbrev main_call5_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call6_cst : Ref sig .tc := ⟨.hbm, 61, rfl⟩
abbrev main_call6_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call7_cst : Ref sig .tc := ⟨.hbm, 69, rfl⟩
abbrev main_call7_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call8_cst : Ref sig .tc := ⟨.hbm, 77, rfl⟩
abbrev main_call8_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call9_cst : Ref sig .tc := ⟨.hbm, 85, rfl⟩
abbrev main_call9_v0 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S5x64_S64x5_1_0 : S5x64.Transposes [1, 0] S64x5
  bcast_S5_S1x5_1 : S5.BroadcastsInDim S1x5 (![1] : Fin 1 → Fin S1x5.rank)
  bcast_S1x5_S2048x5_0_1 : S1x5.BroadcastsInDim S2048x5 (![0, 1] : Fin 2 → Fin S2048x5.rank)
  bcast_S_S2048x5 : S_.BroadcastsInDim S2048x5 (![] : Fin 0 → Fin S2048x5.rank)
  transposes_S5x5_S5x5_1_0 : S5x5.Transposes [1, 0] S5x5
  transposes_S64x5_S5x64_1_0 : S64x5.Transposes [1, 0] S5x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S1x256x64 : S256x64.ShapeCasts S1x256x64
  shapeCasts_S128x64_S128x1x64 : S128x64.ShapeCasts S128x1x64
  broadcasts_S1x256x64_S128x256x64 : S1x256x64.Broadcasts S128x256x64
  broadcasts_S128x1x64_S128x256x64 : S128x1x64.Broadcasts S128x256x64
  reduces_S128x256x64_S128x256 : S128x256x64.Reduces [2] S128x256
  inb_S128x256_S128x256_0_0 : ∀ a, (![0, 0] : Fin 2 → Nat) a + S128x256.size a ≤ S128x256.size a
  h_S128x256 : 0 < S128x256.numel
  dot_S2048x64_S64x5_S2048x5_1_0_0_1_n_n_wf : DotDims.WF S2048x64 S64x5 S2048x5 [1] [0] [0] [1] [] []
  dot_S2048x5_S5x5_S2048x5_1_0_0_1_n_n_wf : DotDims.WF S2048x5 S5x5 S2048x5 [1] [0] [0] [1] [] []
  dot_S2048x5_S5x64_S2048x64_1_0_0_1_n_n_wf : DotDims.WF S2048x5 S5x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S2048x64.size a
  hwx0_0 : ∀ i : grid0.Coords, EltTy.bits .f32 = 32 ∨ (Rect.block (s := S2048x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S2048x64.size a
  hwx0_1 : ∀ i : grid0.Coords, EltTy.bits .f32 = 32 ∨ (Rect.block (s := S2048x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S2048x2048.size a
  hwx0_2 : ∀ i : grid0.Coords, EltTy.bits .f32 = 32 ∨ (Rect.block (s := S2048x2048) S128x256.size (cc0_transform_2 i) (hinb0_2 i)).WholeWords (EltTy.packing .f32)

variable [Facts₀]

def dot_S2048x64_S64x5_S2048x5_1_0_0_1_n_n : DotDims S2048x64 S64x5 S2048x5 where
  lhsContracting := [1]
  rhsContracting := [0]
  lhsNonContracting := [0]
  rhsNonContracting := [1]
  lhsBatch := []
  rhsBatch := []
  wf := dot_S2048x64_S64x5_S2048x5_1_0_0_1_n_n_wf
def dot_S2048x5_S5x5_S2048x5_1_0_0_1_n_n : DotDims S2048x5 S5x5 S2048x5 where
  lhsContracting := [1]
  rhsContracting := [0]
  lhsNonContracting := [0]
  rhsNonContracting := [1]
  lhsBatch := []
  rhsBatch := []
  wf := dot_S2048x5_S5x5_S2048x5_1_0_0_1_n_n_wf
def dot_S2048x5_S5x64_S2048x64_1_0_0_1_n_n : DotDims S2048x5 S5x64 S2048x64 where
  lhsContracting := [1]
  rhsContracting := [0]
  lhsNonContracting := [0]
  rhsNonContracting := [1]
  lhsBatch := []
  rhsBatch := []
  wf := dot_S2048x5_S5x64_S2048x64_1_0_0_1_n_n_wf

abbrev win0_0 : Pipeline.Window sig grid0 :=
  Pipeline.Window.ofSpec (Memref.whole main_v29) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S5x64 : Shape := ⟨2, ![5, 64]⟩
abbrev S5 : Shape := ⟨1, ![5]⟩
abbrev S5x5 : Shape := ⟨2, ![5, 5]⟩
abbrev S64x5 : Shape := ⟨2, ![64, 5]⟩
abbrev S64 : Shape := ⟨1, ![64]⟩
abbrev S2048x5 : Shape := ⟨2, ![2048, 5]⟩
abbrev S1x5 : Shape := ⟨2, ![1, 5]⟩
abbrev S_ : Shape := ⟨0, ![]⟩
abbrev S1x64 : Shape := ⟨2, ![1, 64]⟩
abbrev S1x2048x64 : Shape := ⟨3, ![1, 2048, 64]⟩
abbrev S2048x1x64 : Shape := ⟨3, ![2048, 1, 64]⟩
abbrev S2048x2048x64 : Shape := ⟨3, ![2048, 2048, 64]⟩
abbrev S2048x2048 : Shape := ⟨2, ![2048, 2048]⟩

abbrev nBuf : Space → Nat
  | .hbm => 99
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S5x64, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S64x5, .f32⟩
  | .hbm, ⟨7, _⟩ => ⟨S64, .f32⟩
  | .hbm, ⟨8, _⟩ => ⟨S64x5, .f32⟩
  | .hbm, ⟨9, _⟩ => ⟨S2048x5, .f32⟩
  | .hbm, ⟨10, _⟩ => ⟨S1x5, .f32⟩
  | .hbm, ⟨11, _⟩ => ⟨S2048x5, .f32⟩
  | .hbm, ⟨12, _⟩ => ⟨S2048x5, .f32⟩
  | .hbm, ⟨13, _⟩ => ⟨S_, .f32⟩
  | .hbm, ⟨14, _⟩ => ⟨S2048x5, .f32⟩
  | .hbm, ⟨15, _⟩ => ⟨S2048x5, .f32⟩
  | .hbm, ⟨16, _⟩ => ⟨S5x5, .f32⟩
  | .hbm, ⟨17, _⟩ => ⟨S2048x5, .f32⟩
  | .hbm, ⟨18, _⟩ => ⟨S1x5, .f32⟩
  | .hbm, ⟨19, _⟩ => ⟨S2048x5, .f32⟩
  | .hbm, ⟨20, _⟩ => ⟨S2048x5, .f32⟩
  | .hbm, ⟨21, _⟩ => ⟨S_, .f32⟩
  | .hbm, ⟨22, _⟩ => ⟨S2048x5, .f32⟩
  | .hbm, ⟨23, _⟩ => ⟨S2048x5, .f32⟩
  | .hbm, ⟨24, _⟩ => ⟨S5x5, .f32⟩
  | .hbm, ⟨25, _⟩ => ⟨S2048x5, .f32⟩
  | .hbm, ⟨26, _⟩ => ⟨S1x5, .f32⟩
  | .hbm, ⟨27, _⟩ => ⟨S2048x5, .f32⟩
  | .hbm, ⟨28, _⟩ => ⟨S2048x5, .f32⟩
  | .hbm, ⟨29, _⟩ => ⟨S_, .f32⟩
  | .hbm, ⟨30, _⟩ => ⟨S2048x5, .f32⟩
  | .hbm, ⟨31, _⟩ => ⟨S2048x5, .f32⟩
  | .hbm, ⟨32, _⟩ => ⟨S5x5, .f32⟩
  | .hbm, ⟨33, _⟩ => ⟨S2048x5, .f32⟩
  | .hbm, ⟨34, _⟩ => ⟨S1x5, .f32⟩
  | .hbm, ⟨35, _⟩ => ⟨S2048x5, .f32⟩
  | .hbm, ⟨36, _⟩ => ⟨S2048x5, .f32⟩
  | .hbm, ⟨37, _⟩ => ⟨S_, .f32⟩
  | .hbm, ⟨38, _⟩ => ⟨S2048x5, .f32⟩
  | .hbm, ⟨39, _⟩ => ⟨S2048x5, .f32⟩
  | .hbm, ⟨40, _⟩ => ⟨S5x64, .f32⟩
  | .hbm, ⟨41, _⟩ => ⟨S2048x64, .f32⟩
  | .hbm, ⟨42, _⟩ => ⟨S1x64, .f32⟩
  | .hbm, ⟨43, _⟩ => ⟨S2048x64, .f32⟩
  | .hbm, ⟨44, _⟩ => ⟨S2048x64, .f32⟩
  | .hbm, ⟨45, _⟩ => ⟨S_, .f32⟩
  | .hbm, ⟨46, _⟩ => ⟨S2048x64, .f32⟩
  | .hbm, ⟨47, _⟩ => ⟨S2048x64, .f32⟩
  | .hbm, ⟨48, _⟩ => ⟨S64x5, .f32⟩
  | .hbm, ⟨49, _⟩ => ⟨S2048x5, .f32⟩
  | .hbm, ⟨50, _⟩ => ⟨S1x5, .f32⟩
  | .hbm, ⟨51, _⟩ => ⟨S2048x5, .f32⟩
  | .hbm, ⟨52, _⟩ => ⟨S2048x5, .f32⟩
  | .hbm, ⟨53, _⟩ => ⟨S_, .f32⟩
  | .hbm, ⟨54, _⟩ => ⟨S2048x5, .f32⟩
  | .hbm, ⟨55, _⟩ => ⟨S2048x5, .f32⟩
  | .hbm, ⟨56, _⟩ => ⟨S5x5, .f32⟩
  | .hbm, ⟨57, _⟩ => ⟨S2048x5, .f32⟩
  | .hbm, ⟨58, _⟩ => ⟨S1x5, .f32⟩
  | .hbm, ⟨59, _⟩ => ⟨S2048x5, .f32⟩
  | .hbm, ⟨60, _⟩ => ⟨S2048x5, .f32⟩
  | .hbm, ⟨61, _⟩ => ⟨S_, .f32⟩
  | .hbm, ⟨62, _⟩ => ⟨S2048x5, .f32⟩
  | .hbm, ⟨63, _⟩ => ⟨S2048x5, .f32⟩
  | .hbm, ⟨64, _⟩ => ⟨S5x5, .f32⟩
  | .hbm, ⟨65, _⟩ => ⟨S2048x5, .f32⟩
  | .hbm, ⟨66, _⟩ => ⟨S1x5, .f32⟩
  | .hbm, ⟨67, _⟩ => ⟨S2048x5, .f32⟩
  | .hbm, ⟨68, _⟩ => ⟨S2048x5, .f32⟩
  | .hbm, ⟨69, _⟩ => ⟨S_, .f32⟩
  | .hbm, ⟨70, _⟩ => ⟨S2048x5, .f32⟩
  | .hbm, ⟨71, _⟩ => ⟨S2048x5, .f32⟩
  | .hbm, ⟨72, _⟩ => ⟨S5x5, .f32⟩
  | .hbm, ⟨73, _⟩ => ⟨S2048x5, .f32⟩
  | .hbm, ⟨74, _⟩ => ⟨S1x5, .f32⟩
  | .hbm, ⟨75, _⟩ => ⟨S2048x5, .f32⟩
  | .hbm, ⟨76, _⟩ => ⟨S2048x5, .f32⟩
  | .hbm, ⟨77, _⟩ => ⟨S_, .f32⟩
  | .hbm, ⟨78, _⟩ => ⟨S2048x5, .f32⟩
  | .hbm, ⟨79, _⟩ => ⟨S2048x5, .f32⟩
  | .hbm, ⟨80, _⟩ => ⟨S5x64, .f32⟩
  | .hbm, ⟨81, _⟩ => ⟨S2048x64, .f32⟩
  | .hbm, ⟨82, _⟩ => ⟨S1x64, .f32⟩
  | .hbm, ⟨83, _⟩ => ⟨S2048x64, .f32⟩
  | .hbm, ⟨84, _⟩ => ⟨S2048x64, .f32⟩
  | .hbm, ⟨85, _⟩ => ⟨S_, .f32⟩
  | .hbm, ⟨86, _⟩ => ⟨S2048x64, .f32⟩
  | .hbm, ⟨87, _⟩ => ⟨S2048x64, .f32⟩
  | .hbm, ⟨88, _⟩ => ⟨S1x2048x64, .f32⟩
  | .hbm, ⟨89, _⟩ => ⟨S2048x1x64, .f32⟩
  | .hbm, ⟨90, _⟩ => ⟨S2048x2048x64, .f32⟩
  | .hbm, ⟨91, _⟩ => ⟨S2048x2048x64, .f32⟩
  | .hbm, ⟨92, _⟩ => ⟨S2048x2048x64, .f32⟩
  | .hbm, ⟨93, _⟩ => ⟨S_, .f32⟩
  | .hbm, ⟨94, _⟩ => ⟨S2048x2048x64, .f32⟩
  | .hbm, ⟨95, _⟩ => ⟨S2048x2048x64, .f32⟩
  | .hbm, ⟨96, _⟩ => ⟨S2048x2048x64, .f32⟩
  | .hbm, ⟨97, _⟩ => ⟨S_, .f32⟩
  | .hbm, ⟨98, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call3_cst : Ref sig .tc := ⟨.hbm, 37, rfl⟩
abbrev main_call3_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call4_cst : Ref sig .tc := ⟨.hbm, 45, rfl⟩
abbrev main_call4_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call5_cst : Ref sig .tc := ⟨.hbm, 53, rfl⟩
abbrev main_call5_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call6_cst : Ref sig .tc := ⟨.hbm, 61, rfl⟩
abbrev main_call6_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call7_cst : Ref sig .tc := ⟨.hbm, 69, rfl⟩
abbrev main_call7_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call8_cst : Ref sig .tc := ⟨.hbm, 77, rfl⟩
abbrev main_call8_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call9_cst : Ref sig .tc := ⟨.hbm, 85, rfl⟩
abbrev main_call9_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call10_cst : Ref sig .tc := ⟨.hbm, 93, rfl⟩
abbrev main_call10_v0 : Ref sig .tc := ⟨.hbm, 94, rfl⟩
abbrev main_v65 : Ref sig .tc := ⟨.hbm, 95, rfl⟩
abbrev main_v66 : Ref sig .tc := ⟨.hbm, 96, rfl⟩
abbrev main_cst : Ref sig .tc := ⟨.hbm, 97, rfl⟩
abbrev main_v67 : Ref sig .tc := ⟨.hbm, 98, rfl⟩

abbrev nD : Nat := 1
abbrev τ : Topo := Topo.v7x

variable {F : FTy → Type} [FloatOps F]

class Facts₀ : Prop where
  transposes_S5x64_S64x5_1_0 : S5x64.Transposes [1, 0] S64x5
  bcast_S5_S1x5_1 : S5.BroadcastsInDim S1x5 (![1] : Fin 1 → Fin S1x5.rank)
  bcast_S1x5_S2048x5_0_1 : S1x5.BroadcastsInDim S2048x5 (![0, 1] : Fin 2 → Fin S2048x5.rank)
  bcast_S_S2048x5 : S_.BroadcastsInDim S2048x5 (![] : Fin 0 → Fin S2048x5.rank)
  transposes_S5x5_S5x5_1_0 : S5x5.Transposes [1, 0] S5x5
  transposes_S64x5_S5x64_1_0 : S64x5.Transposes [1, 0] S5x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x64 : S_.BroadcastsInDim S2048x64 (![] : Fin 0 → Fin S2048x64.rank)
  bcast_S2048x64_S1x2048x64_1_2 : S2048x64.BroadcastsInDim S1x2048x64 (![1, 2] : Fin 2 → Fin S1x2048x64.rank)
  bcast_S2048x64_S2048x1x64_0_2 : S2048x64.BroadcastsInDim S2048x1x64 (![0, 2] : Fin 2 → Fin S2048x1x64.rank)
  bcast_S1x2048x64_S2048x2048x64_0_1_2 : S1x2048x64.BroadcastsInDim S2048x2048x64 (![0, 1, 2] : Fin 3 → Fin S2048x2048x64.rank)
  bcast_S2048x1x64_S2048x2048x64_0_1_2 : S2048x1x64.BroadcastsInDim S2048x2048x64 (![0, 1, 2] : Fin 3 → Fin S2048x2048x64.rank)
  bcast_S_S2048x2048x64 : S_.BroadcastsInDim S2048x2048x64 (![] : Fin 0 → Fin S2048x2048x64.rank)
  reducesTo_S2048x2048x64_S2048x2048_d2 : S2048x2048x64.ReducesTo [2] S2048x2048
  h_S_ : 0 < S_.numel
  dot_S2048x64_S64x5_S2048x5_1_0_0_1_n_n_wf : DotDims.WF S2048x64 S64x5 S2048x5 [1] [0] [0] [1] [] []
  dot_S2048x5_S5x5_S2048x5_1_0_0_1_n_n_wf : DotDims.WF S2048x5 S5x5 S2048x5 [1] [0] [0] [1] [] []
  dot_S2048x5_S5x64_S2048x64_1_0_0_1_n_n_wf : DotDims.WF S2048x5 S5x64 S2048x64 [1] [0] [0] [1] [] []

variable [Facts₀]

def dot_S2048x64_S64x5_S2048x5_1_0_0_1_n_n : DotDims S2048x64 S64x5 S2048x5 where
  lhsContracting := [1]
  rhsContracting := [0]
  lhsNonContracting := [0]
  rhsNonContracting := [1]
  lhsBatch := []
  rhsBatch := []
  wf := dot_S2048x64_S64x5_S2048x5_1_0_0_1_n_n_wf
def dot_S2048x5_S5x5_S2048x5_1_0_0_1_n_n : DotDims S2048x5 S5x5 S2048x5 where
  lhsContracting := [1]
  rhsContracting := [0]
  lhsNonContracting := [0]
  rhsNonContracting := [1]
  lhsBatch := []
  rhsBatch := []
  wf := dot_S2048x5_S5x5_S2048x5_1_0_0_1_n_n_wf
def dot_S2048x5_S5x64_S2048x64_1_0_0_1_n_n : DotDims S2048x5 S5x64 S2048x64 where
  lhsContracting := [1]
  rhsContracting := [0]
  lhsNonContracting := [0]
  rhsNonContracting := [1]
  lhsBatch := []
  rhsBatch := []
  wf := dot_S2048x5_S5x64_S2048x64_1_0_0_1_n_n_wf

class Facts : Prop extends Facts₀ where

variable [Facts]
-- ==== Proof.PairSpec.lean ====
/-
  What both programs compute after the shared dense layers: for row vectors `tx[i, ·]` and `ty[j, ·]` of 64 features,
      out[i, j] = Σ_d  relu(ty[j, d] − tx[i, d])²
  on the extended reals. `relu(v) = max v 0`; the zero is kept as the f32 word both programs print, since the same word
  stands on both sides and is never evaluated (only the reduction's initial value, the same word, is read as `0`).
  The sum's order and grouping do not matter on the extended reals' commutative monoid, and here both programs even
  sum the same 64 terms in the same index order, so no finiteness is used anywhere.
-/
import Idealize.ShloMosaic.Lib.ValueIdx
import Idealize.ShloMosaic.PureOps.Ideal.Laws

noncomputable section

open scoped BigOperators

namespace Cert.Pairwise

open Idealize.ShloMosaic Idealize.ShloMosaic.ValueIdx

/-- The squared positive part of `b − a`. -/
def posSq (a b : EReal) : EReal :=
  max (b - a) (Ideal.ofBits .f32 0x00000000#32) * max (b - a) (Ideal.ofBits .f32 0x00000000#32)

/-- Entry (i, j): the squared positive parts of `ty[j, d] − tx[i, d]` summed over the 64 features `d`. -/
def pairAt (tx ty : FVec Ideal ⟨2, ![2048, 64]⟩ .f32) (i j : Fin 2048) : EReal :=
  ∑ d : Fin 64, posSq (tx (ix2 i d)) (ty (ix2 j d))

/-- The whole [2048, 2048] result as one function of the two [2048, 64] feature arrays. -/
def pairSq (tx ty : FVec Ideal ⟨2, ![2048, 64]⟩ .f32) : FVec Ideal ⟨2, ![2048, 2048]⟩ .f32 :=
  fun ij => pairAt tx ty (ij 0) (ij 1)

theorem pairSq_ix2 (tx ty : FVec Ideal ⟨2, ![2048, 64]⟩ .f32) (i j : Fin 2048) :
    pairSq tx ty (ix2 i j) = pairAt tx ty i j := rfl

end Cert.Pairwise

end
-- ==== Proof.BodyAt.lean ====
/-
  The kernel body's one stored value, read at an index. For a [128, 64] block `x0` of `tx` rows and a [256, 64] block
  `x1` of `ty` rows the body stores the [128, 256] block whose entry (p, q) is
      Σ_d  relu(x1[q, d] − x0[p, d])²:
  `x1` is re-laid as [1, 256, 64] and `x0` as [128, 1, 64], both are broadcast to [128, 256, 64], subtracted, clipped
  below at zero, squared, and summed over the last axis from a zero accumulator.
-/
import proofs.«177599_j28295244546074_1_alg».proof.Proof.Gen.KernelIdeal.Skeleton
import proofs.«177599_j28295244546074_1_alg».proof.Proof.PairSpec
import Idealize.ShloMosaic.Lib.ValueIdx
import Idealize.ShloMosaic.Lib.Pipeline.Value
import Idealize.ShloMosaic.PureOps.Ideal.Laws

noncomputable section

open scoped BigOperators

namespace Cert.KernelIdeal.Pairwise

open Idealize.ShloMosaic Idealize.ShloMosaic.ValueIdx Cert.KernelIdeal Cert.KernelIdeal.Gen Cert.Pairwise

/-- The [256, 64] block seen as [1, 256, 64] then spread over 128 leading copies: entry (p, q, d) is `x1[q, d]`. -/
theorem spread_rows (x1 : FVec Ideal S256x64 .f32) (p : Fin 128) (q : Fin 256) (d : Fin 64) :
    broadcastTo S128x256x64 (shapeCast S1x256x64 (shapeCast S256x64 x1 shapeCasts_S256x64_S256x64) shapeCasts_S256x64_S1x256x64)
      broadcasts_S1x256x64_S128x256x64 (ix3 p q d) = x1 (ix2 q d) := by
  rw [shapeCast_self]
  refine (broadcastTo_apply _ broadcasts_S1x256x64_S128x256x64 (ix3 p q d) (ix3 (0 : Fin 1) q d) (fun a => ?_)).trans ?_
  · match a with
    | ⟨0, _⟩ => rfl
    | ⟨1, _⟩ => rfl
    | ⟨2, _⟩ => rfl
  · exact shapeCast_apply x1 shapeCasts_S256x64_S1x256x64 (ix3 (0 : Fin 1) q d) (ix2 q d) (by
      rw [Shape.rowMajor_val_three, Shape.rowMajor_val_two]
      show q.val * 64 + d.val = (0 * 256 + q.val) * 64 + d.val
      omega)

/-- The [128, 64] block seen as [128, 1, 64] then spread over 256 middle copies: entry (p, q, d) is `x0[p, d]`. -/
theorem spread_cols (x0 : FVec Ideal S128x64 .f32) (p : Fin 128) (q : Fin 256) (d : Fin 64) :
    broadcastTo S128x256x64 (shapeCast S128x1x64 (shapeCast S128x64 x0 shapeCasts_S128x64_S128x64) shapeCasts_S128x64_S128x1x64)
      broadcasts_S128x1x64_S128x256x64 (ix3 p q d) = x0 (ix2 p d) := by
  rw [shapeCast_self]
  refine (broadcastTo_apply _ broadcasts_S128x1x64_S128x256x64 (ix3 p q d) (ix3 p (0 : Fin 1) d) (fun a => ?_)).trans ?_
  · match a with
    | ⟨0, _⟩ => rfl
    | ⟨1, _⟩ => rfl
    | ⟨2, _⟩ => rfl
  · exact shapeCast_apply x0 shapeCasts_S128x64_S128x1x64 (ix3 p (0 : Fin 1) d) (ix2 p d) (by
      rw [Shape.rowMajor_val_three, Shape.rowMajor_val_two]
      show p.val * 64 + d.val = (p.val * 1 + 0) * 64 + d.val
      omega)

/-- Entry (p, q) of the stored block: the squared positive parts of `x1[q, d] − x0[p, d]` summed over `d`. -/
theorem payload_at (x0 : Vec Ideal S128x64 .f32) (x1 : Vec Ideal S256x64 .f32) (p : Fin 128) (q : Fin 256) :
    k0_pay1 (F := Ideal) x0 x1 (ix2 p q) = ∑ d : Fin 64, posSq (x0 (ix2 p d)) (x1 (ix2 q d)) := by
  unfold k0_pay1
  refine (Ideal.multiReduction_add_single _ 0x00000000#32 reduces_S128x256x64_S128x256 (.inl rfl) rfl (ix2 p q)).trans ?_
  refine Finset.sum_congr rfl fun (d : Fin 64) _ => ?_
  have hl : reduces_S128x256x64_S128x256.lift (ix2 p q) d = ix3 p q d :=
    funext fun a => Fin.ext (by match a with | ⟨0, _⟩ => rfl | ⟨1, _⟩ => rfl | ⟨2, _⟩ => rfl)
  rw [hl]
  show max (_ - _) _ * max (_ - _) _ = _
  rw [spread_rows, spread_cols]
  rfl

/-- So a stored block whose input rows are rows `a` of `tx` and `b` of `ty` holds, at (p, q), entry (a, b) of the
    whole result. -/
theorem block_entry (tx ty : FVec Ideal S2048x64 .f32) (x0 : Vec Ideal S128x64 .f32) (x1 : Vec Ideal S256x64 .f32)
    (p : Fin 128) (q : Fin 256) (a b : Fin 2048)
    (h0 : ∀ d : Fin 64, x0 (ix2 p d) = tx (ix2 a d)) (h1 : ∀ d : Fin 64, x1 (ix2 q d) = ty (ix2 b d)) :
    k0_pay1 (F := Ideal) x0 x1 (ix2 p q) = pairSq tx ty (ix2 a b) := by
  rw [payload_at, pairSq_ix2]
  exact Finset.sum_congr rfl fun d _ => by rw [h0 d, h1 d]

/-- The same at any index `j` of the block and `y` of the result, by their coordinates. -/
theorem block_entry_idx (tx ty : FVec Ideal S2048x64 .f32) (x0 : Vec Ideal S128x64 .f32) (x1 : Vec Ideal S256x64 .f32)
    (j : S128x256.Idx) (y : S2048x2048.Idx)
    (h0 : ∀ d : Fin 64, x0 (ix2 (j 0) d) = tx (ix2 (y 0) d)) (h1 : ∀ d : Fin 64, x1 (ix2 (j 1) d) = ty (ix2 (y 1) d)) :
    k0_pay1 (F := Ideal) x0 x1 j = pairSq tx ty y := by
  have h := block_entry tx ty x0 x1 (j 0) (j 1) (y 0) (y 1) h0 h1
  exact (congrArg (k0_pay1 (F := Ideal) x0 x1) (eq_ix2 j)).trans (h.trans (congrArg (pairSq tx ty) (eq_ix2 y)).symm)

end Cert.KernelIdeal.Pairwise

end
-- ==== Proof.KernelValue.lean ====
/-
  From blocks to the array. The grid has 16 × 8 points; point (i, j) reads rows 128·i … 128·i + 127 of `tx` (the first
  dense stack's output) and rows 256·j … 256·j + 255 of `ty`, and writes back the [128, 256] block at block index (i, j)
  of the [2048, 2048] result. Each written block is that block of the one whole-array function `pairSq tx ty`, and the
  128 blocks tile the result, so after the run the result array IS `pairSq tx ty`.
-/
import proofs.«177599_j28295244546074_1_alg».proof.Proof.Gen.KernelIdeal.Value
import proofs.«177599_j28295244546074_1_alg».proof.Proof.BodyAt
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pairwise

open Cert.KernelIdeal Cert.KernelIdeal.Gen Cert.KernelIdeal.Value Cert.Pairwise

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the grid: the `tx` window moves with the result's row block and the `ty` window with its
    column block, both at feature block 0; the result's block indices stay inside 16 × 8. -/
theorem index_maps : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every block index of the 16 × 8 tiling is some grid point's. -/
theorem index_onto : ∀ (a : Fin 16) (b : Fin 8), ∃ t : Fin cfg0.N, win0_2.index t = ![a.val, b.val] :=
  (by decide +kernel : ∀ (a : Fin 16) (b : Fin 8), ∃ t : Fin grid0.N, win0_2.index t = ![a.val, b.val])

/-- Row `r` of point `t`'s `tx` block is row `128 · (row block of t) + r` of `tx`. -/
theorem tx_rows (c : Dev nD) (t : Fin cfg0.N) (r : Fin 128) (d : Fin 64) (a : Fin 2048)
    (ha : a.val = win0_2.index t (0 : Fin 2) * 128 + 1 * r.val) :
    (iblk m c 0 t : Vec Ideal S128x64 .f32) (ix2 r d) = (V m c main_v29 : FVec Ideal S2048x64 .f32) (ix2 a d) := by
  obtain ⟨e0, e1, -, -⟩ := index_maps t
  show V m c main_v29 (((cfg0.win 0).blk t).view.emb (ix2 r d)) = V m c main_v29 (ix2 a d)
  refine congrArg (V m c main_v29) (funext fun k => Fin.ext ?_)
  match k with
  | ⟨0, _⟩ =>
    show win0_0.index t (0 : Fin 2) * 128 + 1 * r.val = a.val
    rw [e0, ha]
  | ⟨1, _⟩ =>
    show win0_0.index t (1 : Fin 2) * 64 + 1 * d.val = d.val
    rw [e1]; omega

/-- Row `r` of point `t`'s `ty` block is row `256 · (column block of t) + r` of `ty`. -/
theorem ty_rows (c : Dev nD) (t : Fin cfg0.N) (r : Fin 256) (d : Fin 64) (b : Fin 2048)
    (hb : b.val = win0_2.index t (1 : Fin 2) * 256 + 1 * r.val) :
    (iblk m c 1 t : Vec Ideal S256x64 .f32) (ix2 r d) = (V m c main_v59 : FVec Ideal S2048x64 .f32) (ix2 b d) := by
  obtain ⟨-, -, e2, e3⟩ := index_maps t
  show V m c main_v59 (((cfg0.win 1).blk t).view.emb (ix2 r d)) = V m c main_v59 (ix2 b d)
  refine congrArg (V m c main_v59) (funext fun k => Fin.ext ?_)
  match k with
  | ⟨0, _⟩ =>
    show win0_1.index t (0 : Fin 2) * 256 + 1 * r.val = b.val
    rw [e2, hb]
  | ⟨1, _⟩ =>
    show win0_1.index t (1 : Fin 2) * 64 + 1 * d.val = d.val
    rw [e3]; omega

/-- What point `t` writes back is block `t` of `pairSq` of the two feature arrays as the region finds them. -/
theorem flushed_eq (c : Dev nD) (t : Fin cfg0.N) :
    (dats m 0 c).flushed 2 t
      = ((cfg0.win 2).blk t).view.read (Elt Ideal) (pairSq (V m c main_v29) (V m c main_v59)) := by
  rw [Value.flushed2]
  unfold out0_2
  rw [View.canon_unit_zero zero_offsets]
  simp only [View.ld_unit_zero (S := S128x64) zero_offsets, View.ld_unit_zero (S := S256x64) zero_offsets]
  funext j
  show k0_pay1 (F := Ideal) (iblk m c 0 t) (iblk m c 1 t) j
    = pairSq (V m c main_v29) (V m c main_v59) (((cfg0.win 2).blk t).view.emb j)
  exact block_entry_idx (V m c main_v29) (V m c main_v59) (iblk m c 0 t) (iblk m c 1 t) j
    (((cfg0.win 2).blk t).view.emb j)
    (fun d => tx_rows m c t (j 0) d ((((cfg0.win 2).blk t).view.emb j) 0) rfl)
    (fun d => ty_rows m c t (j 1) d ((((cfg0.win 2).blk t).view.emb j) 1) rfl)

/-- An index of the result lies in point `t`'s block iff each coordinate lies in the block's range on its axis. -/
theorem mem_block (t : Fin cfg0.N) (i : S2048x2048.Idx) :
    i ∈ ((cfg0.win 2).blk t).view.set ↔ ∀ a : Fin 2, win0_2.index t a * S128x256.size a ≤ (i a).val
      ∧ (i a).val < win0_2.index t a * S128x256.size a + S128x256.size a := by
  show i ∈ ((View.whole main_v60).slice (win0_2.rect t)).set ↔ _
  rw [View.set_slice_whole, Rect.mem_set_unit]
  exact Iff.rfl

/-- The blocks tile the result: entry (r, s) is in the block of the point with block index (r / 128, s / 256). -/
theorem tiles (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := index_onto ⟨(i 0).val / 128, by omega⟩ ⟨(i 1).val / 256, by omega⟩
  have q0 : win0_2.index t (0 : Fin 2) = (i 0).val / 128 := congrFun ht 0
  have q1 : win0_2.index t (1 : Fin 2) = (i 1).val / 256 := congrFun ht 1
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 256 ≤ (i 1).val ∧ (i 1).val < win0_2.index t (1 : Fin 2) * 256 + 256
    omega

/-- The result array after the run: `pairSq` of the two feature arrays. -/
theorem final (c : Dev nD) : (dats m 0 c).arrAt 2 cfg0.N = pairSq (V m c main_v29) (V m c main_v59) :=
  (dats m 0 c).arrAt_eq_of_cover 2 (pairSq (V m c main_v29) (V m c main_v59)) (fun t _ => flushed_eq m c t) tiles

/-- The kernel's run, read: the result at `pairSq` of the two feature arrays, the arguments unchanged. -/
theorem run : θ_run defs (onTc (τ := τ) (main (F := Ideal))) ⟨m, fun _ => 0, ρ⟩ fun r => ∀ c : Dev nD,
      r.2.mem ((c : Thread nD τ).loc main_v60) = pairSq (V m c main_v29) (V m c main_v59)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Pairwise

end
-- ==== Proof.HostPrefix.lean ====
/-
  The two feature arrays the kernel's region finds. Before the region the kernel's program runs the same dense stack as
  the reference, once on `x` and once on `y`: five affine layers (64 → 5, three times 5 → 5 with shared weights, 5 → 64),
  each followed by a clip below at zero. The only difference in print is the requested precision of the matrix
  products, and on the extended reals a matrix product is the exact sum of products whatever precision is requested.
  So the arrays the region finds are the reference's own two feature stages of the same arguments; the dense stack is
  carried as that one function and never opened beyond matching the two prints.
-/
import proofs.«177599_j28295244546074_1_alg».proof.Proof.Gen.KernelIdeal.Frame
import proofs.«177599_j28295244546074_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Pairwise

open Cert.KernelIdeal Cert.KernelIdeal.Gen

variable (m : (ℓ : Loc nD τ sig) → Buf (Elt Ideal) ℓ)

set_option maxRecDepth 8192 in
set_option maxHeartbeats 4000000 in
/-- The first window's array: the dense stack of `x`. -/
theorem features_x (c : Dev nD) :
    (V m c main_v29 : S2048x64.Idx → EReal)
      = Cert.ReferenceIdeal.Read.val_main_v29 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl

set_option maxRecDepth 8192 in
set_option maxHeartbeats 4000000 in
/-- The second window's array: the dense stack of `y`. -/
theorem features_y (c : Dev nD) :
    (V m c main_v59 : S2048x64.Idx → EReal)
      = Cert.ReferenceIdeal.Read.val_main_v59 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl

end Cert.KernelIdeal.Pairwise

end
-- ==== Proof.RefValue.lean ====
/-
  The reference's result as `pairSq` of its own two feature arrays. The reference spreads `ty` as [1, 2048, 64] and `tx` as
  [2048, 1, 64] over [2048, 2048, 64], subtracts, clips below at zero, squares, and sums over the last axis from the
  initial value zero. Read at (i, j): zero plus the sum over `d` of the squared positive part of `ty[j, d] − tx[i, d]`;
  the initial value is the real number zero, so the sum is all there is.
-/
import proofs.«177599_j28295244546074_1_alg».proof.Proof.Gen.ReferenceIdeal.Read
import proofs.«177599_j28295244546074_1_alg».proof.Proof.PairSpec
import Idealize.ShloMosaic.Lib.ValueIdx
import Idealize.ShloMosaic.PureOps.Ideal.Laws

noncomputable section

open scoped BigOperators

namespace Cert.ReferenceIdeal.Pairwise

open Idealize.ShloMosaic Idealize.ShloMosaic.ValueIdx Cert.ReferenceIdeal Cert.ReferenceIdeal.Read Cert.Pairwise

/-- Entry (i, j, d) of the spread `ty` is `ty[j, d]`, and of the spread `tx` is `tx[i, d]`. -/
theorem spread_ty_idx (i j : Fin 2048) (d : Fin 64) :
    idx_main_v60 (idx_main_v62 (idx_main_v67 (ix2 i j) d)) = ix2 j d :=
  funext fun a => Fin.ext (by match a with | ⟨0, _⟩ => rfl | ⟨1, _⟩ => rfl)

theorem spread_tx_idx (i j : Fin 2048) (d : Fin 64) :
    idx_main_v61 (idx_main_v63 (idx_main_v67 (ix2 i j) d)) = ix2 i d :=
  funext fun a => Fin.ext (by match a with | ⟨0, _⟩ => rfl | ⟨1, _⟩ => rfl)

/-- The reference's result is `pairSq` of the two dense stacks' outputs. -/
theorem result_eq (x0 x1 : (⟨S2048x64, .f32⟩ : BufTy).Contents (Elt Ideal)) (x2 : (⟨S5x64, .f32⟩ : BufTy).Contents (Elt Ideal))
    (x3 : (⟨S5, .f32⟩ : BufTy).Contents (Elt Ideal)) (x4 : (⟨S5x5, .f32⟩ : BufTy).Contents (Elt Ideal))
    (x5 : (⟨S5, .f32⟩ : BufTy).Contents (Elt Ideal)) (x6 : (⟨S64x5, .f32⟩ : BufTy).Contents (Elt Ideal))
    (x7 : (⟨S64, .f32⟩ : BufTy).Contents (Elt Ideal)) :
    val_main_v67 (F := Ideal) x0 x1 x2 x3 x4 x5 x6 x7
      = pairSq (val_main_v29 (F := Ideal) x0 x2 x3 x4 x5 x6 x7) (val_main_v59 (F := Ideal) x1 x2 x3 x4 x5 x6 x7) := by
  funext ij
  obtain ⟨i, j, rfl⟩ : ∃ (i j : Fin 2048), ij = ix2 i j := ⟨ij 0, ij 1, eq_ix2 ij⟩
  rw [val_main_v67_apply, pairSq_ix2, val_main_cst_apply, Ideal.ofBits_def, Ideal.ofBits_zero_f32, zero_add]
  unfold pairAt
  refine Finset.sum_congr rfl fun d _ => ?_
  rw [val_main_v66_apply, val_main_v65_apply, val_main_v64_apply, val_main_v62_apply, val_main_v60_apply,
    val_main_v63_apply, val_main_v61_apply, val_main_call10_v0_apply, val_main_call10_cst_apply,
    spread_ty_idx, spread_tx_idx]
  generalize val_main_v29 (F := Ideal) x0 x2 x3 x4 x5 x6 x7 = tx
  generalize val_main_v59 (F := Ideal) x1 x2 x3 x4 x5 x6 x7 = ty
  rfl

end Cert.ReferenceIdeal.Pairwise

end
-- ==== Proof.lean ====
/-
  Pairwise squared positive-part distances after a shared dense stack.

  Both programs first send `x` and `y` ([2048, 64] each) through the same dense stack — 64 → 5, three times 5 → 5 with
  shared weights, 5 → 64, every layer followed by a clip below at zero — giving feature arrays `tx` and `ty`, and then
  compute
      out[i, j] = Σ_d  relu(ty[j, d] − tx[i, d])²          (i, j < 2048, d < 64).
  The kernel does the second step on a 16 × 8 grid: point (a, b) reads rows 128a … 128a + 127 of `tx` and rows
  256b … 256b + 255 of `ty` and writes block (a, b) of the result; the reference spreads both arrays over
  [2048, 2048, 64] and reduces the last axis. On the extended reals the two are the same function of `tx` and `ty`,
  term by term and in the same order of summation, so no law that needs finite inputs is used. The dense stacks differ
  in print only by the requested precision of the matrix products, which does not enter an exact sum of products.

  The modules: PairSpec (the function `pairSq`), BodyAt (the kernel body's stored block at an index), KernelValue (the
  blocks tile the result, so the kernel's result array is `pairSq tx ty`), HostPrefix (the arrays the kernel's region
  finds are the reference's two feature stages of the same arguments), RefValue (the reference's result is `pairSq` of its
  two feature stages). Nothing was rewritten when the kernel was idealized, so that conjunct is `True`.
-/
import proofs.«177599_j28295244546074_1_alg».proof.Defs
import proofs.«177599_j28295244546074_1_alg».proof.Proof.Gen.Kernel
import proofs.«177599_j28295244546074_1_alg».proof.Proof.Gen.Kernel.Skeleton
import proofs.«177599_j28295244546074_1_alg».proof.Proof.Gen.Kernel.Launch
import proofs.«177599_j28295244546074_1_alg».proof.Proof.Gen.Kernel.Points
import proofs.«177599_j28295244546074_1_alg».proof.Proof.Gen.Kernel.Frame
import proofs.«177599_j28295244546074_1_alg».proof.Proof.Gen.KernelIdeal
import proofs.«177599_j28295244546074_1_alg».proof.Proof.Gen.KernelIdeal.Skeleton
import proofs.«177599_j28295244546074_1_alg».proof.Proof.Gen.KernelIdeal.Launch
import proofs.«177599_j28295244546074_1_alg».proof.Proof.Gen.KernelIdeal.Points
import proofs.«177599_j28295244546074_1_alg».proof.Proof.Gen.KernelIdeal.Frame
import proofs.«177599_j28295244546074_1_alg».proof.Proof.Gen.ReferenceIdeal
import proofs.«177599_j28295244546074_1_alg».proof.Proof.Gen.Pre_finite_inputs
import proofs.«177599_j28295244546074_1_alg».proof.Proof.Gen.KernelIdeal.Value
import proofs.«177599_j28295244546074_1_alg».proof.Proof.Gen.ReferenceIdeal.Run
import proofs.«177599_j28295244546074_1_alg».proof.Proof.Gen.ReferenceIdeal.Read
import proofs.«177599_j28295244546074_1_alg».proof.Proof.KernelValue
import proofs.«177599_j28295244546074_1_alg».proof.Proof.HostPrefix
import proofs.«177599_j28295244546074_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the eight arguments both programs end with `pairSq` of the dense stack of `x` and the
    dense stack of `y`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Pairwise.pairSq (Cert.KernelIdeal.Gen.V m c Cert.KernelIdeal.main_v29) (Cert.KernelIdeal.Gen.V m c Cert.KernelIdeal.main_v59),
    Cert.KernelIdeal.Pairwise.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v67_eq, Cert.ReferenceIdeal.Pairwise.result_eq, h0, h1, h2, h3, h4, h5, h6, h7]
  exact congrArg₂ Cert.Pairwise.pairSq (Cert.KernelIdeal.Pairwise.features_x m c).symm
    (Cert.KernelIdeal.Pairwise.features_y m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
